-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S256 : Shape := ⟨1, ![256]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x256 .f32) (main_arg1 : FVec F S256x256 .f32) (main_arg2 : FVec F S256 .f32) (main_arg3 : FVec F S256x256 .f32) (main_arg4 : FVec F S256 .f32) (main_arg5 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S100000x256 : Shape := ⟨2, ![100000, 256]⟩
abbrev S256x256 : Shape := ⟨2, ![256, 256]⟩
abbrev S256 : Shape := ⟨1, ![256]⟩
abbrev S2x1600000 : Shape := ⟨2, ![2, 1600000]⟩
abbrev S1x256 : Shape := ⟨2, ![1, 256]⟩
abbrev S5000x256 : Shape := ⟨2, ![5000, 256]⟩

abbrev nBuf : Space → Nat
  | .hbm => 11
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x1600000, .i32⟩
  | .hbm, ⟨6, _⟩ => ⟨S256x256, .bf16⟩
  | .hbm, ⟨7, _⟩ => ⟨S256x256, .bf16⟩
  | .hbm, ⟨8, _⟩ => ⟨S1x256, .f32⟩
  | .hbm, ⟨9, _⟩ => ⟨S1x256, .f32⟩
  | .hbm, ⟨10, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S256 : Shape := ⟨1, ![256]⟩
abbrev S2x1600000 : Shape := ⟨2, ![2, 1600000]⟩
abbrev S1x256 : Shape := ⟨2, ![1, 256]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x1600000, .i32⟩
  | .hbm, ⟨6, _⟩ => ⟨S100000x256, .f32⟩
  | .hbm, ⟨7, _⟩ => ⟨S1x256, .f32⟩
  | .hbm, ⟨8, _⟩ => ⟨S100000x256, .f32⟩
  | .hbm, ⟨9, _⟩ => ⟨S100000x256, .f32⟩
  | .hbm, ⟨10, _⟩ => ⟨S_, .f32⟩
  | .hbm, ⟨11, _⟩ => ⟨S100000x256, .f32⟩
  | .hbm, ⟨12, _⟩ => ⟨S100000x256, .f32⟩
  | .hbm, ⟨13, _⟩ => ⟨S100000x256, .f32⟩
  | .hbm, ⟨14, _⟩ => ⟨S1x256, .f32⟩
  | .hbm, ⟨15, _⟩ => ⟨S100000x256, .f32⟩
  | .hbm, ⟨16, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  dot_S100000x256_S256x256_S100000x256_1_0_0_1_n_n_wf : DotDims.WF S100000x256 S256x256 S100000x256 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.TwoLayer.lean ====
/-
  The function both programs compute, stated once over the extended reals.

  A two-layer perceptron applied to every row of a [100000, 256] array: for a row `x : Fin 256 → EReal`,
  weights `W1 W2 : [256, 256]` and biases `b1 b2 : Fin 256 → EReal`,

      hidden x k = max ((∑ l, x l · W1[l, k]) + b1 k) 0
      output x j = (∑ k, hidden x k · W2[k, j]) + b2 j.

  Row `r` of the result depends on row `r` of the input only, which is why a tiling of the rows computes the same
  array as the whole-array product. No law beyond the definitions is used to join the two sides: both programs
  compute these very sums (a matrix product into a zero accumulator is the sum itself, `0 + s = s` on every
  extended real), so nothing here needs the inputs to be finite.
-/
import Idealize.ShloMosaic.PureOps.Ideal
import Idealize.ShloMosaic.PureOps.Ideal.Laws
import Idealize.ShloMosaic.Lib.ValueIdx

noncomputable section

namespace Cert.TwoLayer

open Idealize.ShloMosaic Idealize.ShloMosaic.ValueIdx

/-- The shape of a [256, 256] weight matrix. -/
abbrev Sq : Shape := ⟨2, ![256, 256]⟩
/-- The shape of the [100000, 256] array of rows. -/
abbrev Rows : Shape := ⟨2, ![100000, 256]⟩
/-- The shape of a [256] bias vector. -/
abbrev Bias : Shape := ⟨1, ![256]⟩

/-- Unit `k` of the hidden layer on one row: the rectified affine form `max (x · W[:, k] + b k) 0`. -/
def hidden (x : Fin 256 → EReal) (W : Sq.Idx → EReal) (b : Fin 256 → EReal) (k : Fin 256) : EReal :=
  max ((∑ l : Fin 256, x l * W (ix2 l k)) + b k) 0

/-- Unit `j` of the output layer on one row: the affine form of the hidden layer, `hidden x · W2[:, j] + b2 j`. -/
def output (x : Fin 256 → EReal) (W1 : Sq.Idx → EReal) (b1 : Fin 256 → EReal) (W2 : Sq.Idx → EReal)
    (b2 : Fin 256 → EReal) (j : Fin 256) : EReal :=
  (∑ k : Fin 256, hidden x W1 b1 k * W2 (ix2 k j)) + b2 j

/-- The whole result: entry `(r, j)` is output unit `j` of row `r` of `X`. -/
def apply (X : Rows.Idx → EReal) (W1 : Sq.Idx → EReal) (b1 : Bias.Idx → EReal) (W2 : Sq.Idx → EReal)
    (b2 : Bias.Idx → EReal) : Rows.Idx → EReal := fun i =>
  output (fun l => X (ix2 (i 0) l)) W1 (fun k => b1 (ix1 k)) W2 (fun k => b2 (ix1 k)) (i 1)

end Cert.TwoLayer

end
-- ==== Proof.RefTwoLayer.lean ====
/-
  The reference computes `TwoLayer.apply`.

  Its host program is, stage by stage, a product with `W1`, a row bias, a maximum with zero, a product with `W2`
  and a row bias. Read at an index `(r, j)`, each product is a sum over the 256 contracted coordinates of the
  left operand at `(r, k)` times the right one at `(k, j)`, each bias broadcast reads the bias at `j`, and the
  zero splat reads `0`; so entry `(r, j)` of the hidden stage is `TwoLayer.hidden` of row `r` at `j` and
  entry `(r, j)` of the result is `TwoLayer.output` of row `r` at `j`.
-/
import proofs.«403594_j37726992728724_3_alg».proof.Proof.Gen.ReferenceIdeal.Read
import proofs.«403594_j37726992728724_3_alg».proof.Proof.TwoLayer

noncomputable section

namespace Cert.ReferenceIdeal.RefValue

open Cert.ReferenceIdeal Cert.ReferenceIdeal.Read Idealize.ShloMosaic Idealize.ShloMosaic.ValueIdx

/-- The left operand of either product is read on the output's row, at the contracted coordinate. -/
theorem lidx0_eq (r : Fin 100000) (j k : Fin 256) : lidx_main_v0 (ix2 r j) k = ix2 r k :=
  funext fun a => Fin.ext (by match a with | ⟨0, _⟩ => rfl | ⟨1, _⟩ => rfl)
theorem lidx5_eq (r : Fin 100000) (j k : Fin 256) : lidx_main_v5 (ix2 r j) k = ix2 r k :=
  funext fun a => Fin.ext (by match a with | ⟨0, _⟩ => rfl | ⟨1, _⟩ => rfl)
/-- The right operand is read at the contracted coordinate, on the output's column. -/
theorem ridx0_eq (r : Fin 100000) (j k : Fin 256) : ridx_main_v0 (ix2 r j) k = ix2 k j :=
  funext fun a => Fin.ext (by match a with | ⟨0, _⟩ => rfl | ⟨1, _⟩ => rfl)
theorem ridx5_eq (r : Fin 100000) (j k : Fin 256) : ridx_main_v5 (ix2 r j) k = ix2 k j :=
  funext fun a => Fin.ext (by match a with | ⟨0, _⟩ => rfl | ⟨1, _⟩ => rfl)
/-- A bias broadcast along the rows reads the bias at the output's column. -/
theorem bias1_eq (r : Fin 100000) (j : Fin 256) : idx_main_v1 (idx_main_v2 (ix2 r j)) = ix1 j :=
  funext fun a => Fin.ext (by match a with | ⟨0, _⟩ => rfl)
theorem bias2_eq (r : Fin 100000) (j : Fin 256) : idx_main_v6 (idx_main_v7 (ix2 r j)) = ix1 j :=
  funext fun a => Fin.ext (by match a with | ⟨0, _⟩ => rfl)

/-- The stage after the rectifier at `(r, j)` is hidden unit `j` of row `r`. -/
theorem hidden_stage (X : (⟨S100000x256, .f32⟩ : BufTy).Contents (Elt Ideal)) (W1 : (⟨S256x256, .f32⟩ : BufTy).Contents (Elt Ideal))
    (b1 : (⟨S256, .f32⟩ : BufTy).Contents (Elt Ideal)) (r : Fin 100000) (j : Fin 256) :
    val_main_v4 (F := Ideal) X W1 b1 (ix2 r j)
      = Cert.TwoLayer.hidden (fun l => X (ix2 r l)) W1 (fun k => b1 (ix1 k)) j := by
  rw [val_main_v4_apply, val_main_v3_apply, val_main_v0_apply, val_main_v2_apply, val_main_v1_apply,
    val_main_call0_v0_apply, val_main_call0_cst_apply, bias1_eq]
  simp only [lidx0_eq, ridx0_eq, Ideal.maximumf_def, Ideal.addf_def, Ideal.ofBits_def, Ideal.ofBits_zero_f32]
  rfl

/-- The reference's last stage is `TwoLayer.apply` of its five float arguments. -/
theorem result_stage (X : (⟨S100000x256, .f32⟩ : BufTy).Contents (Elt Ideal)) (W1 : (⟨S256x256, .f32⟩ : BufTy).Contents (Elt Ideal))
    (b1 : (⟨S256, .f32⟩ : BufTy).Contents (Elt Ideal)) (W2 : (⟨S256x256, .f32⟩ : BufTy).Contents (Elt Ideal))
    (b2 : (⟨S256, .f32⟩ : BufTy).Contents (Elt Ideal)) :
    val_main_v8 (F := Ideal) X W1 b1 W2 b2 = Cert.TwoLayer.apply X W1 b1 W2 b2 := by
  funext i
  obtain ⟨r, j, rfl⟩ : ∃ (r : Fin 100000) (j : Fin 256), i = ix2 r j := ⟨i 0, i 1, eq_ix2 i⟩
  rw [val_main_v8_apply, val_main_v5_apply, val_main_v7_apply, val_main_v6_apply, bias2_eq, Ideal.addf_def]
  show _ = Cert.TwoLayer.output (fun l => X (ix2 r l)) W1 (fun k => b1 (ix1 k)) W2 (fun k => b2 (ix1 k)) j
  unfold Cert.TwoLayer.output
  refine congrArg (· + b2 (ix1 j)) (Finset.sum_congr rfl fun k _ => ?_)
  rw [lidx5_eq, ridx5_eq, hidden_stage]

end Cert.ReferenceIdeal.RefValue

end
-- ==== Proof.BlockValue.lean ====
/-
  What the kernel body stores for one block of 5000 rows.

  The body loads a [5000, 256] block `x` of rows, the two [256, 256] weight matrices and the two [1, 256] bias
  rows, and stores `(max (x · W1 + b1) 0) · W2 + b2`. At the extended reals the changes of float format are the
  identity and a matrix product into a zero accumulator is the plain sum over the contracted coordinate, so the
  stored value at `(p, q)` is `TwoLayer.output` of row `p` of the block at `q`: the same per-row function the
  reference applies to every row of the whole array.
-/
import proofs.«403594_j37726992728724_3_alg».proof.Proof.Gen.KernelIdeal.Skeleton
import proofs.«403594_j37726992728724_3_alg».proof.Proof.TwoLayer
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## The product's operand indices: rows × contraction times contraction × columns -/

theorem lhs_axis0 (i : S5000x256.Idx) (c : dot_S5000x256_S256x256_S5000x256_1_0_0_1_n_n.contr.Idx) :
    (dot_S5000x256_S256x256_S5000x256_1_0_0_1_n_n.lhsIdx i c 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_axis1 (i : S5000x256.Idx) (c : dot_S5000x256_S256x256_S5000x256_1_0_0_1_n_n.contr.Idx) :
    (dot_S5000x256_S256x256_S5000x256_1_0_0_1_n_n.lhsIdx i c 1).val = (c ⟨0, by decide⟩).val :=
  dot_S5000x256_S256x256_S5000x256_1_0_0_1_n_n.lhsIdx_val_of_single rfl i c
theorem rhs_axis0 (i : S5000x256.Idx) (c : dot_S5000x256_S256x256_S5000x256_1_0_0_1_n_n.contr.Idx) :
    (dot_S5000x256_S256x256_S5000x256_1_0_0_1_n_n.rhsIdx i c 0).val = (c ⟨0, by decide⟩).val :=
  dot_S5000x256_S256x256_S5000x256_1_0_0_1_n_n.rhsIdx_val_of_single rfl i c
theorem rhs_axis1 (i : S5000x256.Idx) (c : dot_S5000x256_S256x256_S5000x256_1_0_0_1_n_n.contr.Idx) :
    (dot_S5000x256_S256x256_S5000x256_1_0_0_1_n_n.rhsIdx i c 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A [5000, 256] × [256, 256] product into the zero accumulator, at `(p, q)`: the sum over `k` of `A[p, k] · B[k, q]`. -/
theorem product_apply (A : FVec Ideal S5000x256 .bf16) (B : FVec Ideal S256x256 .bf16) (p : Fin 5000) (q : Fin 256) :
    matmul dot_S5000x256_S256x256_S5000x256_1_0_0_1_n_n none A B (constant S5000x256 .f32 0x00000000#32) (ix2 p q)
      = ∑ k : Fin 256, A (ix2 p k) * B (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- A [1, 256] row broadcast down the 5000 rows reads, at `(p, q)`, the row at `q`. -/
theorem bias_apply (b : FVec Ideal S1x256 .f32) (p : Fin 5000) (q : Fin 256) :
    broadcastTo S5000x256 b broadcasts_S1x256_S5000x256 (ix2 p q) = b (ix2 0 q) :=
  broadcastTo_apply b broadcasts_S1x256_S5000x256 (ix2 p q) (ix2 0 q) (fun a => by
    match a with
    | ⟨0, _⟩ => show 0 = if (1 : Nat) = 1 then 0 else _; rw [if_pos rfl]
    | ⟨1, _⟩ => show q.val = if (256 : Nat) = 1 then 0 else q.val; rw [if_neg (by decide)])

/-- The rectified first layer of the body at `(p, k)` is hidden unit `k` of row `p` of the block. -/
theorem hidden_apply (x : Vec Ideal S5000x256 .f32) (W1 : Vec Ideal S256x256 .bf16) (b1 : Vec Ideal S1x256 .f32)
    (p : Fin 5000) (k : Fin 256) :
    maximumf (addf (matmul (φ₁ := .bf16) (φ₂ := .bf16) dot_S5000x256_S256x256_S5000x256_1_0_0_1_n_n none (truncf .bf16 x bitsLt_bf16_f32) W1
          (constant S5000x256 .f32 0x00000000#32))
        (broadcastTo S5000x256 (b1 : FVec Ideal S1x256 .f32) broadcasts_S1x256_S5000x256))
      (broadcast S5000x256 (Scalar.ofBits (F := Ideal) .f32 0x00000000#32)) (ix2 p k)
      = Cert.TwoLayer.hidden (fun l => x (ix2 p l)) W1 (fun k => b1 (ix2 0 k)) k := by
  rw [maximumf_apply, addf_apply, product_apply, bias_apply, broadcast_apply]
  unfold Cert.TwoLayer.hidden
  simp only [truncf_apply, Scalar.ofBits, Ideal.ofBits_def, Ideal.ofBits_zero_f32]

/-- THE BLOCK: what the body stores at `(p, q)` is output unit `q` of row `p` of the loaded block, under the loaded
    weights and bias rows (the body's casts of a shape to itself are the identity). -/
theorem payload_apply (x : Vec Ideal S5000x256 .f32) (W1 : Vec Ideal S256x256 .bf16) (b1 : Vec Ideal S1x256 .f32)
    (W2 : Vec Ideal S256x256 .bf16) (b2 : Vec Ideal S1x256 .f32) (p : Fin 5000) (q : Fin 256) :
    k0_pay1 (F := Ideal) x W1 b1 W2 b2 (ix2 p q)
      = Cert.TwoLayer.output (fun l => x (ix2 p l)) W1 (fun k => b1 (ix2 0 k)) W2 (fun k => b2 (ix2 0 k)) q := by
  unfold k0_pay1
  simp only [shapeCast_self]
  rw [addf_apply, product_apply, bias_apply]
  unfold Cert.TwoLayer.output
  refine congrArg (· + b2 (ix2 0 q)) (Finset.sum_congr rfl fun k _ => ?_)
  rw [truncf_apply, hidden_apply]

end Cert.KernelIdeal.BlockValue

end
-- ==== Proof.ArrayValue.lean ====
/-
  From the blocks to the whole array.

  The grid has 20 points; point `t` is handed rows `5000 t … 5000 t + 4999` of the input as its block, the two
  weight matrices and the two bias rows whole (their block index never moves), and writes its [5000, 256] result
  back to the same rows of the output. The weight matrices reach the kernel through a change of float format
  (the identity at the extended reals) and the biases through a reshape of [256] to [1, 256], which reads entry
  `k` at `(0, k)`. So what point `t` writes at `(p, q)` is `TwoLayer.output` of row `5000 t + p` of the input
  at `q`: block `t` of `TwoLayer.apply` of the five arguments. Row `r` lies in the block of point `r / 5000`, so
  the blocks cover the array and it ends holding `TwoLayer.apply` of the arguments.
-/
import proofs.«403594_j37726992728724_3_alg».proof.Proof.Gen.KernelIdeal.Value
import proofs.«403594_j37726992728724_3_alg».proof.Proof.BlockValue
import Idealize.ShloMosaic.Lib.Pipeline.Value
import Idealize.ShloMosaic.Lib.Tactic

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The five float arguments, as arrays of extended reals -/

abbrev rowsArg (c : Dev nD) : S100000x256.Idx → EReal := m ((c : Thread nD τ).loc main_arg0)
abbrev w1Arg (c : Dev nD) : S256x256.Idx → EReal := m ((c : Thread nD τ).loc main_arg1)
abbrev b1Arg (c : Dev nD) : S256.Idx → EReal := m ((c : Thread nD τ).loc main_arg2)
abbrev w2Arg (c : Dev nD) : S256x256.Idx → EReal := m ((c : Thread nD τ).loc main_arg3)
abbrev b2Arg (c : Dev nD) : S256.Idx → EReal := m ((c : Thread nD τ).loc main_arg4)

/-- What the output array ends holding: the two-layer perceptron of the arguments. -/
abbrev result (c : Dev nD) : Buf (Elt Ideal) ((c : Thread nD τ).loc main_v4) :=
  Cert.TwoLayer.apply (rowsArg m c) (w1Arg m c) (b1Arg m c) (w2Arg m c) (b2Arg m c)

/-! ## The arrays the region finds: the host operations before it -/

/-- The first weight matrix after its change of format: itself. -/
theorem entry_w1 (c : Dev nD) : (V m c main_v0 : S256x256.Idx → EReal) = w1Arg m c := by
  dsimp only [V, hostOps0]; after_results; rfl
/-- The second weight matrix after its change of format: itself. -/
theorem entry_w2 (c : Dev nD) : (V m c main_v1 : S256x256.Idx → EReal) = w2Arg m c := by
  dsimp only [V, hostOps0]; after_results; rfl
/-- The first bias as a [1, 256] row reads entry `k` at `(0, k)`. -/
theorem entry_b1 (c : Dev nD) (k : Fin 256) : (V m c main_v2 : S1x256.Idx → EReal) (ix2 0 k) = b1Arg m c (ix1 k) := by
  have e : (V m c main_v2 : S1x256.Idx → EReal) = shapeCast S1x256 (b1Arg m c) shapeCasts_S256_S1x256 := by
    dsimp only [V, hostOps0]; after_results; rfl
  rw [e]
  refine shapeCast_apply _ _ _ _ ?_
  rw [Shape.rowMajor_val_one, Shape.rowMajor_val_two]
  show k.val = 0 * 256 + k.val
  omega
/-- The second bias as a [1, 256] row reads entry `k` at `(0, k)`. -/
theorem entry_b2 (c : Dev nD) (k : Fin 256) : (V m c main_v3 : S1x256.Idx → EReal) (ix2 0 k) = b2Arg m c (ix1 k) := by
  have e : (V m c main_v3 : S1x256.Idx → EReal) = shapeCast S1x256 (b2Arg m c) shapeCasts_S256_S1x256 := by
    dsimp only [V, hostOps0]; after_results; rfl
  rw [e]
  refine shapeCast_apply _ _ _ _ ?_
  rw [Shape.rowMajor_val_one, Shape.rowMajor_val_two]
  show k.val = 0 * 256 + k.val
  omega

/-! ## The windows' blocks -/

/-- The printed index maps over the 20 grid points: the input rows and the output move with the point along the
    rows; every other window stays on block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of the input is rows `5000 t …` of the first argument. -/
theorem rows_block (c : Dev nD) (t : Fin cfg0.N) (p : Fin 5000) (l : Fin 256) (r : Fin 100000)
    (hr : r.val = 5000 * t.val + p.val) :
    (iblk m c 0 t : Vec Ideal S5000x256 .f32) (ix2 p l) = rowsArg m c (ix2 r l) := by
  obtain ⟨e0, e1, -⟩ := idx_facts t
  unfold iblk
  rw [View.read_apply]
  show V m c main_arg0 _ = rowsArg m c _
  rw [V_main_arg0]
  refine congrArg (rowsArg m c) (funext fun a => Fin.ext ?_)
  match a with
  | ⟨0, _⟩ => show win0_0.index t (0 : Fin 2) * 5000 + 1 * p.val = r.val; rw [e0, hr]; omega
  | ⟨1, _⟩ => show win0_0.index t (1 : Fin 2) * 256 + 1 * l.val = l.val; rw [e1]; omega

/-- Every point's block of the first weight matrix is the whole second argument. -/
theorem w1_block (c : Dev nD) (t : Fin cfg0.N) : (iblk m c 1 t : Vec Ideal S256x256 .bf16) = w1Arg m c := by
  obtain ⟨-, -, e0, e1, -⟩ := idx_facts t
  funext i
  unfold iblk
  rw [View.read_apply]
  show V m c main_v0 _ = w1Arg m c i
  rw [entry_w1]
  refine congrArg (w1Arg m c) (funext fun a => Fin.ext ?_)
  match a with
  | ⟨0, _⟩ => show win0_1.index t (0 : Fin 2) * 256 + 1 * (i 0).val = (i 0).val; rw [e0]; omega
  | ⟨1, _⟩ => show win0_1.index t (1 : Fin 2) * 256 + 1 * (i 1).val = (i 1).val; rw [e1]; omega

/-- Every point's block of the second weight matrix is the whole fourth argument. -/
theorem w2_block (c : Dev nD) (t : Fin cfg0.N) : (iblk m c 3 t : Vec Ideal S256x256 .bf16) = w2Arg m c := by
  obtain ⟨-, -, -, -, -, -, e0, e1, -⟩ := idx_facts t
  funext i
  unfold iblk
  rw [View.read_apply]
  show V m c main_v1 _ = w2Arg m c i
  rw [entry_w2]
  refine congrArg (w2Arg m c) (funext fun a => Fin.ext ?_)
  match a with
  | ⟨0, _⟩ => show win0_3.index t (0 : Fin 2) * 256 + 1 * (i 0).val = (i 0).val; rw [e0]; omega
  | ⟨1, _⟩ => show win0_3.index t (1 : Fin 2) * 256 + 1 * (i 1).val = (i 1).val; rw [e1]; omega

/-- Every point's block of the first bias row reads the third argument. -/
theorem b1_block (c : Dev nD) (t : Fin cfg0.N) (k : Fin 256) :
    (iblk m c 2 t : Vec Ideal S1x256 .f32) (ix2 0 k) = b1Arg m c (ix1 k) := by
  obtain ⟨-, -, -, -, e0, e1, -⟩ := idx_facts t
  unfold iblk
  rw [View.read_apply, ← entry_b1 m c k]
  show V m c main_v2 _ = V m c main_v2 _
  refine congrArg (V m c main_v2) (funext fun a => Fin.ext ?_)
  match a with
  | ⟨0, _⟩ => show win0_2.index t (0 : Fin 2) * 1 + 1 * 0 = 0; rw [e0]
  | ⟨1, _⟩ => show win0_2.index t (1 : Fin 2) * 256 + 1 * k.val = k.val; rw [e1]; omega

/-- Every point's block of the second bias row reads the fifth argument. -/
theorem b2_block (c : Dev nD) (t : Fin cfg0.N) (k : Fin 256) :
    (iblk m c 4 t : Vec Ideal S1x256 .f32) (ix2 0 k) = b2Arg m c (ix1 k) := by
  obtain ⟨-, -, -, -, -, -, -, -, e0, e1, -⟩ := idx_facts t
  unfold iblk
  rw [View.read_apply, ← entry_b2 m c k]
  show V m c main_v3 _ = V m c main_v3 _
  refine congrArg (V m c main_v3) (funext fun a => Fin.ext ?_)
  match a with
  | ⟨0, _⟩ => show win0_4.index t (0 : Fin 2) * 1 + 1 * 0 = 0; rw [e0]
  | ⟨1, _⟩ => show win0_4.index t (1 : Fin 2) * 256 + 1 * k.val = k.val; rw [e1]; omega

/-! ## What each point writes back, the cover, the array -/

/-- The output layer depends on its five data only. -/
theorem output_congr {x x' : Fin 256 → EReal} {W1 W1' : Cert.TwoLayer.Sq.Idx → EReal} {b1 b1' : Fin 256 → EReal}
    {W2 W2' : Cert.TwoLayer.Sq.Idx → EReal} {b2 b2' : Fin 256 → EReal}
    (hx : x = x') (hW1 : W1 = W1') (hb1 : b1 = b1') (hW2 : W2 = W2') (hb2 : b2 = b2') (q : Fin 256) :
    Cert.TwoLayer.output x W1 b1 W2 b2 q = Cert.TwoLayer.output x' W1' b1' W2' b2' q := by
  rw [hx, hW1, hb1, hW2, hb2]

/-- WHAT POINT `t` WRITES BACK is block `t` of the perceptron of the arguments: at `(p, q)` of the block, output unit
    `q` of row `5000 t + p`. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := idx_facts t
  have hN : cfg0.N = 20 := N_0
  rw [flushed5]
  unfold out0_5
  rw [View.canon_unit_zero hz]
  simp only [View.ld_unit_zero (S := S5000x256) hz, View.ld_unit_zero (S := S256x256) hz, View.ld_unit_zero (S := S1x256) hz]
  funext j
  obtain ⟨p, q, rfl⟩ : ∃ (p : Fin 5000) (q : Fin 256), j = ix2 p q := ⟨j 0, j 1, eq_ix2 j⟩
  have hr : 5000 * t.val + p.val < 100000 := by have := t.isLt; omega
  have he : ((cfg0.win 5).blk t).view.emb (ix2 p q) = ix2 (⟨5000 * t.val + p.val, hr⟩ : Fin 100000) q :=
    funext fun a => Fin.ext (by
      match a with
      | ⟨0, _⟩ => show win0_5.index t (0 : Fin 2) * 5000 + 1 * p.val = 5000 * t.val + p.val; rw [e0]; omega
      | ⟨1, _⟩ => show win0_5.index t (1 : Fin 2) * 256 + 1 * q.val = q.val; rw [e1]; omega)
  show k0_pay1 (F := Ideal) (iblk m c 0 t) (iblk m c 1 t) (iblk m c 2 t) (iblk m c 3 t) (iblk m c 4 t) (ix2 p q)
    = result m c (((cfg0.win 5).blk t).view.emb (ix2 p q))
  rw [he]
  refine (BlockValue.payload_apply (iblk m c 0 t) (iblk m c 1 t) (iblk m c 2 t) (iblk m c 3 t) (iblk m c 4 t) p q).trans ?_
  exact output_congr (funext fun l => rows_block m c t p l ⟨5000 * t.val + p.val, hr⟩ rfl) (w1_block m c t)
    (funext fun k => b1_block m c t k) (w2_block m c t) (funext fun k => b2_block m c t k) q

/-- An index of the array is in point `t`'s block iff each coordinate is in the block's range on its axis. -/
theorem mem_block (t : Fin cfg0.N) (i : S100000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v4).slice (win0_5.rect t)).set ↔ _
  rw [View.set_slice_whole, Rect.mem_set_unit]
  exact Iff.rfl

/-- Row `r` is written by point `r / 5000`: the 20 blocks cover the array. -/
theorem cover (i : S100000x256.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 256 := (i 1).isLt
  refine ⟨⟨(i 0).val / 5000, by omega⟩, flush0_5 _, ?_⟩
  obtain ⟨-, -, -, -, -, -, -, -, -, -, e0, e1⟩ := idx_facts ⟨(i 0).val / 5000, by omega⟩
  rw [mem_block]
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 256 ≤ (i 1).val ∧ (i 1).val < win0_5.index ⟨(i 0).val / 5000, _⟩ (1 : Fin 2) * 256 + 256
    rw [e1]; omega

/-- THE ARRAY after the run is the perceptron of the arguments. -/
theorem final (c : Dev nD) : (dats m 0 c).arrAt 5 cfg0.N = result m c :=
  (dats m 0 c).arrAt_eq_of_cover 5 (result m c) (fun t _ => flushed_eq m c t) cover

/-- The run, read: the output array at the perceptron of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (run_blocks m ρ)

end Cert.KernelIdeal.ArrayValue

end
-- ==== Proof.lean ====
/-
  A two-layer perceptron on 100000 rows of width 256, `relu (X · W1 + b1) · W2 + b2`, tiled over the rows in 20 blocks of
  5000 with the matrix products fed in a narrower float format, against the same expression on whole arrays.

  Over the extended reals a change of float format is the identity and a matrix product into a zero accumulator is the
  plain sum over the contracted coordinate, so both programs compute, at every `(r, j)`,

      (∑ k, max ((∑ l, X[r, l] · W1[l, k]) + b1[k]) 0 · W2[k, j]) + b2[j]      (`TwoLayer.apply`).

  Row `r` of the result depends on row `r` of `X` only, so the tiling changes nothing: point `t` of the grid writes rows
  `5000 t … 5000 t + 4999`, and the 20 blocks cover the array. The two sides are the same sums term by term; no law that
  fails at an infinity is used, and the precondition (finite inputs) is never opened. The integer edge list is read by
  neither program.

  The three frames are the programs' runs with the results dropped; the idealization rewrote no operation, so the
  preservation claim is `True`.
-/
import proofs.«403594_j37726992728724_3_alg».proof.Defs
import proofs.«403594_j37726992728724_3_alg».proof.Proof.Gen.Kernel
import proofs.«403594_j37726992728724_3_alg».proof.Proof.Gen.Kernel.Skeleton
import proofs.«403594_j37726992728724_3_alg».proof.Proof.Gen.Kernel.Launch
import proofs.«403594_j37726992728724_3_alg».proof.Proof.Gen.Kernel.Points
import proofs.«403594_j37726992728724_3_alg».proof.Proof.Gen.Kernel.Frame
import proofs.«403594_j37726992728724_3_alg».proof.Proof.Gen.KernelIdeal
import proofs.«403594_j37726992728724_3_alg».proof.Proof.Gen.KernelIdeal.Skeleton
import proofs.«403594_j37726992728724_3_alg».proof.Proof.Gen.KernelIdeal.Launch
import proofs.«403594_j37726992728724_3_alg».proof.Proof.Gen.KernelIdeal.Points
import proofs.«403594_j37726992728724_3_alg».proof.Proof.Gen.KernelIdeal.Frame
import proofs.«403594_j37726992728724_3_alg».proof.Proof.Gen.ReferenceIdeal
import proofs.«403594_j37726992728724_3_alg».proof.Proof.Gen.Pre_finite_inputs
import proofs.«403594_j37726992728724_3_alg».proof.Proof.Gen.KernelIdeal.Value
import proofs.«403594_j37726992728724_3_alg».proof.Proof.Gen.ReferenceIdeal.Run
import proofs.«403594_j37726992728724_3_alg».proof.Proof.Gen.ReferenceIdeal.Read
import proofs.«403594_j37726992728724_3_alg».proof.Proof.TwoLayer
import proofs.«403594_j37726992728724_3_alg».proof.Proof.RefTwoLayer
import proofs.«403594_j37726992728724_3_alg».proof.Proof.BlockValue
import proofs.«403594_j37726992728724_3_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's output array ends at `TwoLayer.apply` of its arguments (the blocks of rows, covered), the reference's at its
    last stage, which is `TwoLayer.apply` of its own; the arguments agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_stage,
    (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
